-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel

variable [Facts]

def fn {F : FTy → Type} [FloatOps F] (main_arg0 : FVec F S65536x512 .f32) (main_arg1 : IVec S65536 32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  main_v3
-- ==== Kernel.lean ====
abbrev S65536x512 : Shape := ⟨2, ![65536, 512]⟩
abbrev S65536 : Shape := ⟨1, ![65536]⟩
abbrev S256x512 : Shape := ⟨2, ![256, 512]⟩
abbrev S8192x512 : Shape := ⟨2, ![8192, 512]⟩
abbrev S32x512 : Shape := ⟨2, ![32, 512]⟩
abbrev S32x256x512 : Shape := ⟨3, ![32, 256, 512]⟩
abbrev S_ : Shape := ⟨0, ![]⟩
abbrev S256 : Shape := ⟨1, ![256]⟩
abbrev S256x1 : Shape := ⟨2, ![256, 1]⟩
abbrev S512x256 : Shape := ⟨2, ![512, 256]⟩
abbrev S256x256 : Shape := ⟨2, ![256, 256]⟩

abbrev nBuf : Space → Nat
  | .hbm => 32
  | .vmem => 4
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S256x512, .f32⟩
  | .hbm, ⟨12, _⟩ => ⟨S256x512, .f32⟩
  | .hbm, ⟨13, _⟩ => ⟨S512x256, .f32⟩
  | .hbm, ⟨14, _⟩ => ⟨S256x256, .f32⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i32⟩
  | .hbm, ⟨20, _⟩ => ⟨S256x256, .i1⟩
  | .hbm, ⟨21, _⟩ => ⟨S_, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S_, .f32⟩
  | .hbm, ⟨31, _⟩ => ⟨S_, .f32⟩
  | .local _ .vmem, ⟨0, _⟩ => ⟨S8192x512, .f32⟩
  | .local _ .vmem, ⟨1, _⟩ => ⟨S8192x512, .f32⟩
  | .local _ .vmem, ⟨2, _⟩ => ⟨S32x512, .f32⟩
  | .local _ .vmem, ⟨3, _⟩ => ⟨S32x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8192x512_S8192x512_0_0 : ∀ a, (![0, 0] : Fin 2 → Nat) a + S8192x512.size a ≤ S8192x512.size a
  h_S8192x512 : 0 < S8192x512.numel
  shapeCasts_S8192x512_S32x256x512 : S8192x512.ShapeCasts S32x256x512
  reduces_S32x256x512_S32x512 : S32x256x512.Reduces [1] S32x512
  inb_S32x512_S32x512_0_0 : ∀ a, (![0, 0] : Fin 2 → Nat) a + S32x512.size a ≤ S32x512.size a
  h_S32x512 : 0 < S32x512.numel
  reducesTo_S256x512_S256_d1 : S256x512.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x512_0_1 : S256x1.BroadcastsInDim S256x512 (![0, 1] : Fin 2 → Fin S256x512.rank)
  transposes_S256x512_S512x256_1_0 : S256x512.Transposes [1, 0] S512x256
  bcast_S_S256x256 : S_.BroadcastsInDim S256x256 (![] : Fin 0 → Fin S256x256.rank)
  reducesTo_S256x256_S256_d1 : S256x256.ReducesTo [1] S256
  bcast_S_S256 : S_.BroadcastsInDim S256 (![] : Fin 0 → Fin S256.rank)
  reducesTo_S256_S_d0 : S256.ReducesTo [0] S_
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S65536x512.size a
  hwx0_0 : ∀ i : grid0.Coords, EltTy.bits .f32 = 32 ∨ (Rect.block (s := S65536x512) S8192x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S256x512.size a
  hwx0_1 : ∀ i : grid0.Coords, EltTy.bits .f32 = 32 ∨ (Rect.block (s := S256x512) S32x512.size (cc0_transform_1 i) (hinb0_1 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_arg0) S8192x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536 : Shape := ⟨1, ![65536]⟩
abbrev S256x256x512 : Shape := ⟨3, ![256, 256, 512]⟩
abbrev S_ : Shape := ⟨0, ![]⟩
abbrev S256x512 : Shape := ⟨2, ![256, 512]⟩
abbrev S256 : Shape := ⟨1, ![256]⟩
abbrev S256x1 : Shape := ⟨2, ![256, 1]⟩
abbrev S512x256 : Shape := ⟨2, ![512, 256]⟩
abbrev S256x256 : Shape := ⟨2, ![256, 256]⟩

abbrev nBuf : Space → Nat
  | .hbm => 37
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S256x256x512, .f32⟩
  | .hbm, ⟨3, _⟩ => ⟨S_, .f32⟩
  | .hbm, ⟨4, _⟩ => ⟨S256x512, .f32⟩
  | .hbm, ⟨5, _⟩ => ⟨S_, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x512, .f32⟩
  | .hbm, ⟨17, _⟩ => ⟨S256x512, .f32⟩
  | .hbm, ⟨18, _⟩ => ⟨S512x256, .f32⟩
  | .hbm, ⟨19, _⟩ => ⟨S256x256, .f32⟩
  | .hbm, ⟨20, _⟩ => ⟨S256x256, .i32⟩
  | .hbm, ⟨21, _⟩ => ⟨S256x256, .i32⟩
  | .hbm, ⟨22, _⟩ => ⟨S_, .i32⟩
  | .hbm, ⟨23, _⟩ => ⟨S256x256, .i32⟩
  | .hbm, ⟨24, _⟩ => ⟨S256x256, .i32⟩
  | .hbm, ⟨25, _⟩ => ⟨S256x256, .i1⟩
  | .hbm, ⟨26, _⟩ => ⟨S_, .f32⟩
  | .hbm, ⟨27, _⟩ => ⟨S_, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S_, .f32⟩
  | .hbm, ⟨36, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  shapeCasts_S65536x512_S256x256x512 : S65536x512.ShapeCasts S256x256x512
  reducesTo_S256x256x512_S256x512_d1 : S256x256x512.ReducesTo [1] S256x512
  h_S_ : 0 < S_.numel
  bcast_S_S256x512 : S_.BroadcastsInDim S256x512 (![] : Fin 0 → Fin S256x512.rank)
  reducesTo_S256x512_S256_d1 : S256x512.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x512_0_1 : S256x1.BroadcastsInDim S256x512 (![0, 1] : Fin 2 → Fin S256x512.rank)
  transposes_S256x512_S512x256_1_0 : S256x512.Transposes [1, 0] S512x256
  bcast_S_S256x256 : S_.BroadcastsInDim S256x256 (![] : Fin 0 → Fin S256x256.rank)
  reducesTo_S256x256_S256_d1 : S256x256.ReducesTo [1] S256
  bcast_S_S256 : S_.BroadcastsInDim S256 (![] : Fin 0 → Fin S256.rank)
  reducesTo_S256_S_d0 : S256.ReducesTo [0] S_
  dot_S256x512_S512x256_S256x256_1_0_0_1_n_n_wf : DotDims.WF S256x512 S512x256 S256x256 [1] [0] [0] [1] [] []

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

class Facts : Prop extends Facts₀ where

variable [Facts]
-- ==== Proof.Centers.lean ====
import Idealize.ShloMosaic.PureOps.Ideal
import Idealize.ShloMosaic.Lib.ValueIdx

/-!
# The class centers, as one function of the feature array

The feature array has 65536 rows of 512 entries; class `c` owns the 256 consecutive rows
`256·c … 256·c + 255`. Its center is the mean of those rows, column by column: the sum of the
256 entries of a column divided by 256. Both programs compute exactly this array first, and
everything after it is a function of the centers alone.
-/

noncomputable section

open scoped BigOperators

namespace Cert.Spec

open Idealize.ShloMosaic Idealize.ShloMosaic.ValueIdx

/-- The feature array's shape. -/
abbrev SFeat : Shape := ⟨2, ![65536, 512]⟩
/-- The centers' shape: one row per class. -/
abbrev SCen : Shape := ⟨2, ![256, 512]⟩

/-- Row `r` of class `c` is row `256·c + r` of the feature array. -/
abbrev classRow (c r : Fin 256) : Fin 65536 := ⟨c.val * 256 + r.val, by have := c.isLt; have := r.isLt; omega⟩

/-- The center of class `j 0` at column `j 1`: the class's 256 rows summed and divided by the
    word of `256.0` (kept as its bit pattern: both programs divide by the same word). -/
def centers (x : SFeat.Idx → EReal) : SCen.Idx → EReal := fun j =>
  Ideal.div (∑ r : Fin 256, x (ix2 (classRow (j 0) r) (j 1))) (Ideal.ofBits .f32 0x43800000#32)

end Cert.Spec

end
-- ==== Proof.KernelCenters.lean ====
import proofs.«427114_j14216341750189_3_alg».proof.Proof.Gen.KernelIdeal.Frame
import proofs.«427114_j14216341750189_3_alg».proof.Proof.Centers
import Idealize.ShloMosaic.Lib.Pipeline.Value
import Idealize.ShloMosaic.Lib.ValueIdx
import Idealize.ShloMosaic.PureOps.Ideal.Laws

/-!
# The kernel's output array is the array of class centers

The kernel runs on a grid of 8 points. Point `t` is handed rows `8192·t … 8192·t + 8191` of the
feature array (32 classes of 256 rows each), regroups them as `[32, 256, 512]`, sums over the
middle axis and divides by `256`: a `[32, 512]` block, written to rows `32·t … 32·t + 31` of
the output. Row `p` of that block sums the block's rows `256·p + r`, that is the feature rows
`8192·t + 256·p + r = 256·(32·t + p) + r`: the rows of class `32·t + p`. So every block is a
block of `Cert.Spec.centers` of the feature array, and the 8 blocks tile the output.
-/

noncomputable section

open scoped BigOperators
open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

/-- The zero offsets of a whole-block access. -/
theorem hz : (![0, 0] : Fin 2 → Nat) = fun _ => 0 := funext fun a => by fin_cases a <;> rfl

/-- What the body stores, at row `p` and column `q` of its block: the regrouped block at `(p, r, q)` is the
    loaded block at row `256·p + r` (the same row-major position), the sum over the middle axis starts from
    the additive unit and so is the plain sum over `r`, and the quotient is by the word of `256.0`. -/
theorem pay_apply (x0 : Vec Ideal S8192x512 .f32) (p : Fin 32) (q : Fin 512) :
    k0_pay1 (F := Ideal) x0 (ix2 p q)
      = Ideal.div (∑ r : Fin 256, x0 (ix2 (⟨p.val * 256 + r.val, by have := p.isLt; have := r.isLt; omega⟩ : Fin 8192) q))
          (Ideal.ofBits .f32 0x43800000#32) := by
  unfold k0_pay1
  dsimp only
  rw [divf_apply, broadcast_apply]
  refine congrArg₂ Ideal.div ((Ideal.multiReduction_add_single (shapeCast S32x256x512 x0 shapeCasts_S8192x512_S32x256x512)
    0x00000000#32 reduces_S32x256x512_S32x512 (.inl rfl) rfl (ix2 p q)).trans ?_) rfl
  refine Finset.sum_congr rfl fun r _ => ?_
  refine shapeCast_apply x0 _ _ _ ?_
  rw [Shape.rowMajor_val_two, Shape.rowMajor_val_three]
  show (p.val * 256 + r.val) * 512 + q.val = (p.val * 256 + r.val) * 512 + q.val
  rfl

variable (m : (ℓ : Loc nD τ sig) → Buf (Elt Ideal) ℓ)

/-- The printed index maps over the grid: point `t` fetches block `t` of the features and writes block `t` of the centers. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the centers of the whole feature array: local row
    `256·p + r` of the fetched block is feature row `8192·t + 256·p + r`, and local row `p` of the written
    block is center row `32·t + p`, whose class rows are `256·(32·t + p) + r`: the same row. -/
theorem flushed_eq (c : Dev nD) (t : Fin cfg0.N) :
    (dats m 0 c).flushed 1 t = ((cfg0.win 1).blk t).view.read (Elt Ideal) (Cert.Spec.centers (V m c main_arg0)) := by
  show (cfg0.win 1).cut (grid0.coords t) ((dats m 0 c).after 1 t) = _
  rw [after0_1]
  unfold out0_1
  rw [View.canon_unit_zero hz]
  simp only [View.ld_unit_zero (S := S8192x512) hz]
  obtain ⟨e0, e1, e2, e3⟩ := idx_facts t
  funext j
  obtain ⟨p, q, rfl⟩ : ∃ (p : Fin 32) (q : Fin 512), j = ix2 p q := ⟨j 0, j 1, eq_ix2 j⟩
  show k0_pay1 (F := Ideal) (iblk m c 0 t) (ix2 p q)
    = Cert.Spec.centers (V m c main_arg0) (((cfg0.win 1).blk t).view.emb (ix2 p q))
  refine (pay_apply _ p q).trans ?_
  unfold Cert.Spec.centers
  refine congrArg₂ Ideal.div (Finset.sum_congr rfl fun r _ => ?_) rfl
  show V m c main_arg0 (((cfg0.win 0).blk t).view.emb (ix2 (⟨p.val * 256 + r.val, _⟩ : Fin 8192) q)) = _
  refine congrArg (V m c main_arg0) ?_
  funext a
  apply Fin.ext
  match a with
  | ⟨0, _⟩ =>
    show win0_0.index t (0 : Fin 2) * 8192 + 1 * (p.val * 256 + r.val)
      = (win0_1.index t (0 : Fin 2) * 32 + 1 * p.val) * 256 + r.val
    rw [e0, e2]; omega
  | ⟨1, _⟩ =>
    show win0_0.index t (1 : Fin 2) * 512 + 1 * q.val = win0_1.index t (1 : Fin 2) * 512 + 1 * q.val
    rw [e1, e3]

/-- An index of the output is in point `t`'s block iff each coordinate lies in the block's range on its axis. -/
theorem mem_blk (t : Fin cfg0.N) (i : S256x512.Idx) :
    i ∈ ((cfg0.win 1).blk t).view.set ↔ ∀ a : Fin 2, win0_1.index t a * S32x512.size a ≤ (i a).val
      ∧ (i a).val < win0_1.index t a * S32x512.size a + S32x512.size a := by
  show i ∈ ((View.whole main_v0).slice (win0_1.rect t)).set ↔ _
  rw [View.set_slice_whole, Rect.mem_set_unit]
  exact Iff.rfl

/-- Every index of the output lies in some written block: center row `i` is written by point `i / 32`. -/
theorem cover (i : S256x512.Idx) :
    ∃ t : Fin cfg0.N, (cfg0.win 1).flush t = true ∧ i ∈ ((cfg0.win 1).blk t).view.set := by
  have hi0 : (i 0).val < 256 := (i 0).isLt
  have hi1 : (i 1).val < 512 := (i 1).isLt
  have hN : cfg0.N = 8 := N_0
  have ht : (i 0).val / 32 < cfg0.N := by rw [hN]; omega
  obtain ⟨-, -, e2, e3⟩ := idx_facts ⟨(i 0).val / 32, ht⟩
  have e2' : win0_1.index ⟨(i 0).val / 32, ht⟩ (0 : Fin 2) = (i 0).val / 32 := e2
  refine ⟨⟨(i 0).val / 32, ht⟩, flush0_1 _, ?_⟩
  rw [mem_blk]
  intro a
  match a with
  | ⟨0, _⟩ =>
    show win0_1.index ⟨(i 0).val / 32, ht⟩ (0 : Fin 2) * 32 ≤ (i 0).val
      ∧ (i 0).val < win0_1.index ⟨(i 0).val / 32, ht⟩ (0 : Fin 2) * 32 + 32
    rw [e2']; omega
  | ⟨1, _⟩ =>
    show win0_1.index ⟨(i 0).val / 32, ht⟩ (1 : Fin 2) * 512 ≤ (i 1).val
      ∧ (i 1).val < win0_1.index ⟨(i 0).val / 32, ht⟩ (1 : Fin 2) * 512 + 512
    rw [e3]; omega

/-- So after the run the output array is the centers of the feature array as launched. -/
theorem final (c : Dev nD) :
    (dats m 0 c).arrAt 1 cfg0.N = Cert.Spec.centers (m ((c : Thread nD τ).loc main_arg0)) :=
  ((dats m 0 c).arrAt_eq_of_cover 1 (Cert.Spec.centers (V m c main_arg0)) (fun t _ => flushed_eq m c t) cover).trans
    (by rw [V_main_arg0])

end Cert.KernelIdeal.Hand

end
-- ==== Proof.Loss.lean ====
import proofs.«427114_j14216341750189_3_alg».proof.Proof.Gen.ReferenceIdeal
import Idealize.ShloMosaic.PureOps.Ideal

/-!
# From the centers to the loss

After the centers are known both programs run the same host operations on them: each center is
divided by `max(‖center‖, ε)` (its norm the square root of the sum of its squares), the
normalised centers are multiplied with their own transpose to give every pair's cosine
similarity, the diagonal is replaced by `+∞`, each row's minimum is taken, and `1 − minimum` is
summed over the classes. `lossOfCenters` is that chain as one function; it is only ever applied,
never opened: the two programs agree on it operation for operation.
-/

noncomputable section

namespace Cert.Spec

open Cert.ReferenceIdeal Cert.ReferenceIdeal.Gen Idealize.ShloMosaic

/-- The centers divided, row by row, by `max(sqrt(Σ center²), ε)`. -/
def normalised (cen : FVec Ideal S256x512 .f32) : FVec Ideal S256x512 .f32 :=
  Host.divf cen (broadcastInDim S256x512 ![0, 1] bcast_S256x1_S256x512_0_1 (maximumf (Host.sqrt (broadcastInDim S256x1 ![0] bcast_S256_S256x1_0 (Host.reduceAdd (mulf cen cen) (constant S_ .f32 0x00000000#32) reducesTo_S256x512_S256_d1 h_S_))) (broadcastInDim S256x1 ![] bcast_S_S256x1 (constant S_ .f32 0x322BCC77#32))))

/-- The loss as a function of the centers: pairwise similarities of the normalised centers, the
    diagonal masked to `+∞`, each row's minimum, and the sum of `1 − minimum`. -/
def lossOfCenters (cen : FVec Ideal S256x512 .f32) : FVec Ideal S_ .f32 :=
  Host.reduceAdd (subf (broadcastInDim S256 ![] bcast_S_S256 (constant S_ .f32 0x3F800000#32)) (Host.reduce FloatOps.minimumf (select (cmpi .eq (addi (iotaInDim S256x256 32 0) (broadcastInDim S256x256 ![] bcast_S_S256x256 (constantI S_ 32 0#32))) (iotaInDim S256x256 32 1)) (broadcastInDim S256x256 ![] bcast_S_S256x256 (id (constant S_ .f32 0x7F800000#32))) (Host.dotGeneral dot_S256x512_S512x256_S256x256_1_0_0_1_n_n none (normalised cen) (transpose S512x256 [1, 0] (normalised cen) transposes_S256x512_S512x256_1_0))) (constant S_ .f32 0x7F800000#32) reducesTo_S256x256_S256_d1 h_S_)) (constant S_ .f32 0x00000000#32) reducesTo_S256_S_d0 h_S_

end Cert.Spec

end
-- ==== Proof.KernelRun.lean ====
import proofs.«427114_j14216341750189_3_alg».proof.Proof.KernelCenters
import proofs.«427114_j14216341750189_3_alg».proof.Proof.Loss
import Idealize.ShloMosaic.Lib.StableHlo.Run

/-!
# The kernel program's result is the loss of the centers

After the region has filled the centers array, the program's host operations compute the loss
from it: the same chain of operations as the reference's, read here as `Cert.Spec.lossOfCenters`
applied to what the region left in the centers array, which is `Cert.Spec.centers` of the
feature array.
-/

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- What the host operations after the region leave in the result buffer: they read the region's output
    array, which holds the centers, and apply the loss chain to it (the chain's operations, one by one,
    are those of `Cert.Spec.lossOfCenters`; a called function's typed buffers read through unchanged). -/
theorem loss_eq (c : Dev nD) :
    Pipeline.afterTail₀ cfgs (dats m) 0 (V0 m) [hostOps1, hostOps1_1, hostOps1_2] c main_v20
      = Cert.Spec.lossOfCenters (Cert.Spec.centers (m ((c : Thread nD τ).loc main_arg0))) := by
  unfold Pipeline.afterTail₀
  simp only [hostOps1, hostOps1_1, hostOps1_2, List.flatten_cons, List.flatten_nil, List.append_nil, List.cons_append,
    List.nil_append]
  after_results
  have hcen : Pipeline.withArrays (cfgs 0).spec c (V0 m c) (fun w => (dats m 0 c).arrAt w (cfgs 0).N)
      (Proc.devRef .tc main_v0) = Cert.Spec.centers (m ((c : Thread nD τ).loc main_arg0)) :=
    (Pipeline.withArrays_arr spec0 launch0.win.arr_inj c _ _ 1).trans (final m c)
  rw [hcen]
  rfl

/-- The kernel program's run: its result is the loss of the centers of its feature array; the feature
    array, a fetched input, and the label array, which nothing touches, end as launched. -/
theorem run : θ_run defs (onTc (τ := τ) (main (F := Ideal))) ⟨m, fun _ => 0, ρ⟩ fun r => ∀ c : Dev nD,
      r.2.mem ((c.tc : Thread nD τ).loc main_v20)
        = Cert.Spec.lossOfCenters (Cert.Spec.centers (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v20 (Pipeline.mem_restRefs_of main_v20 (by decide) (by decide))).trans (loss_eq m c),
      ((h c).1 0).trans (((dats m 0 c).arrAt_in 0 rfl _).trans ((A_eq m c 0).trans (V_main_arg0 m c))),
      ((h c).2 main_arg1 (Pipeline.mem_restRefs_of main_arg1 (by decide) (by decide))).trans
        (W_main_arg1 m (dats m) c)⟩)
    (run_main m ρ)

end Cert.KernelIdeal.Hand

end
-- ==== Proof.RefCenters.lean ====
import proofs.«427114_j14216341750189_3_alg».proof.Proof.Gen.ReferenceIdeal.Read
import proofs.«427114_j14216341750189_3_alg».proof.Proof.Centers
import proofs.«427114_j14216341750189_3_alg».proof.Proof.Loss

/-!
# The reference computes the same centers, and then the same loss of them

The reference regroups the feature array as `[256, 256, 512]` (class, row within the class,
column), sums over the middle axis starting from `0.0`, and divides by `256.0`. Entry
`(c, r, d)` of the regrouped array is entry `(256·c + r, d)` of the feature array, and `0 + s = s`
on the extended reals, so this is `Cert.Spec.centers`. Every later operation of the reference
reads the feature array only through these centers: its result is `Cert.Spec.lossOfCenters` of them.
-/

noncomputable section

open scoped BigOperators
open Idealize.ShloMosaic Idealize.ShloMosaic.TcCoe Idealize.SL.Sem
open Idealize.ShloMosaic.ValueIdx

namespace Cert.ReferenceIdeal.Hand

open Cert.ReferenceIdeal Cert.ReferenceIdeal.Gen Cert.ReferenceIdeal.Read

/-- The reference's quotient stage is the centers: read at class `c` and column `d`, the initial `0.0`
    drops out of the sum, and the regrouped index `(c, r, d)` has row-major position
    `(256·c + r)·512 + d`, so it reads feature row `256·c + r` at column `d`. -/
theorem centers_eq (x0 : FVec Ideal S65536x512 .f32) :
    val_main_v3 (F := Ideal) x0 = Cert.Spec.centers x0 := by
  funext j
  obtain ⟨c, d, rfl⟩ : ∃ (c : Fin 256) (d : Fin 512), j = ix2 c d := ⟨j 0, j 1, eq_ix2 j⟩
  rw [val_main_v3_apply, val_main_v1_apply, val_main_v2_apply, val_main_cst_0_apply, val_main_cst_apply]
  simp only [val_main_v0_apply]
  unfold Cert.Spec.centers
  simp only [Ideal.hostDivf_def, Ideal.ofBits_def, Ideal.ofBits_zero_f32, zero_add]
  refine congrArg₂ Ideal.div (Finset.sum_congr rfl fun r _ => congrArg x0 ?_) rfl
  funext a
  apply Fin.ext
  match a with
  | ⟨0, _⟩ =>
    show ((c.val * 256 + r.val) * 512 + d.val) / 512 = c.val * 256 + r.val
    have := d.isLt; omega
  | ⟨1, _⟩ =>
    show ((c.val * 256 + r.val) * 512 + d.val) % 512 = d.val
    have := d.isLt; omega

variable (m : (ℓ : Loc nD τ sig) → Buf (Elt Ideal) ℓ) (ρ : Dev nD → PrngReg)

/-- The reference's run: its result is the loss of the centers of its feature array, its arguments
    unchanged. The composed term of the run is the loss chain applied to the quotient stage, by unfolding. -/
theorem run : θ_run defs (onTc (τ := τ) (main (F := Ideal))) ⟨m, fun _ => 0, ρ⟩ fun r => ∀ c : Dev nD,
      r.2.mem ((c.tc : Thread nD τ).loc main_v23)
        = Cert.Spec.lossOfCenters (Cert.Spec.centers (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      show Cert.Spec.lossOfCenters (val_main_v3 (F := Ideal) (m ((c.tc : Thread nD τ).loc main_arg0))) = _
      rw [centers_eq]), (h c).2⟩)
    (Cert.ReferenceIdeal.Value.run (F := Ideal) m ρ)

end Cert.ReferenceIdeal.Hand

end
-- ==== Proof.lean ====
/- The loss of a set of class centers: a tiled kernel for the centers, followed by host operations,
   against a plain reference. Both programs first form the centers of the feature array (class `c` is
   rows `256·c … 256·c + 255`; its center the column-wise mean of those rows) and then apply one and the
   same chain of host operations to the centers. The kernel forms the centers 32 classes at a time on
   a grid of 8 points, the reference in one reduction of the regrouped array; index by index both are
   the sum of a class's 256 rows divided by 256 (`Proof/KernelCenters.lean`, `Proof/RefCenters.lean`
   against `Proof/Centers.lean`), and the chain after them is one function of the centers
   (`Proof/Loss.lean`, `Proof/KernelRun.lean`). No law beyond re-indexing a finite sum and
   `0 + s = s` is used, so the finiteness of the inputs is never opened. -/
import proofs.«427114_j14216341750189_3_alg».proof.Defs
import proofs.«427114_j14216341750189_3_alg».proof.Proof.Gen.Kernel
import proofs.«427114_j14216341750189_3_alg».proof.Proof.Gen.Kernel.Skeleton
import proofs.«427114_j14216341750189_3_alg».proof.Proof.Gen.Kernel.Launch
import proofs.«427114_j14216341750189_3_alg».proof.Proof.Gen.Kernel.Points
import proofs.«427114_j14216341750189_3_alg».proof.Proof.Gen.Kernel.Frame
import proofs.«427114_j14216341750189_3_alg».proof.Proof.Gen.KernelIdeal
import proofs.«427114_j14216341750189_3_alg».proof.Proof.Gen.KernelIdeal.Skeleton
import proofs.«427114_j14216341750189_3_alg».proof.Proof.Gen.KernelIdeal.Launch
import proofs.«427114_j14216341750189_3_alg».proof.Proof.Gen.KernelIdeal.Points
import proofs.«427114_j14216341750189_3_alg».proof.Proof.Gen.KernelIdeal.Frame
import proofs.«427114_j14216341750189_3_alg».proof.Proof.Gen.ReferenceIdeal
import proofs.«427114_j14216341750189_3_alg».proof.Proof.Gen.Pre_finite_inputs
import proofs.«427114_j14216341750189_3_alg».proof.Proof.Gen.ReferenceIdeal.Run
import proofs.«427114_j14216341750189_3_alg».proof.Proof.Gen.ReferenceIdeal.Read
import proofs.«427114_j14216341750189_3_alg».proof.Proof.KernelRun
import proofs.«427114_j14216341750189_3_alg».proof.Proof.RefCenters
import Idealize.ShloMosaic.Adequacy
import Idealize.ShloMosaic.Init

noncomputable section

namespace Cert.Proof

open Idealize.ShloMosaic Idealize.SL.Sem Cert.Kernel

/-- The word-level kernel program runs and keeps its arguments: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the loss of the centers of the feature array; from memories that
    agree on the feature array these are one value. -/
theorem algebraic : Cert.algebraic_KernelIdeal_ReferenceIdeal := by
  intro m ρ m' ρ' _ hagree
  refine ⟨fun c => Cert.Spec.lossOfCenters (Cert.Spec.centers
      (m ((c.tc : Thread Cert.KernelIdeal.nD Cert.KernelIdeal.τ).loc Cert.KernelIdeal.main_arg0))),
    Cert.KernelIdeal.Hand.run m ρ, ?_⟩
  refine (θ_run Cert.ReferenceIdeal.defs _ _).mono (fun _ h c => ⟨?_, (h c).2⟩) (Cert.ReferenceIdeal.Hand.run m' ρ')
  rw [(h c).1, (hagree c).1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
